-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x64 : Shape := ⟨4, ![16, 128, 128, 64]⟩
abbrev S_ : Shape := ⟨0, ![]⟩

class Facts : Prop where
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  h_S_ : 0 < S_.numel

variable [Facts]

def fn {F : FTy → Type} [FloatOps F] (main_arg0 : FVec F S16x128x128x64 .f32) : IVec S_ 1 :=
  let main_v0 : FVec F S16x128x128x64 .f32 := Host.absf main_arg0
  let main_cst : FVec F S_ .f32 := constant S_ .f32 0x7F800000#32
  let main_v1 : FVec F S16x128x128x64 .f32 := broadcastInDim S16x128x128x64 ![] bcast_S_S16x128x128x64 main_cst
  let main_v2 : IVec S16x128x128x64 1 := cmpf .olt main_v0 main_v1
  let main_c : IVec S_ 1 := constantI S_ 1 1#1
  let main_v3 : IVec S_ 1 := (fun x v => Host.reduce IntOp.andi x v reducesTo_S16x128x128x64_S_d0_1_2_3 h_S_) main_v2 main_c
  main_v3
-- ==== Kernel.lean ====
abbrev S16x128x128x64 : Shape := ⟨4, ![16, 128, 128, 64]⟩
abbrev S16x126x126x576 : Shape := ⟨4, ![16, 126, 126, 576]⟩
abbrev S1x128x128x64 : Shape := ⟨4, ![1, 128, 128, 64]⟩
abbrev S1x18x126x576 : Shape := ⟨4, ![1, 18, 126, 576]⟩
abbrev S1x18x126x64 : Shape := ⟨4, ![1, 18, 126, 64]⟩
abbrev S18x126x64 : Shape := ⟨3, ![18, 126, 64]⟩

abbrev nBuf : Space → Nat
  | .hbm => 2
  | .vmem => 4
  | .smem => 0
  | _ => 0

abbrev bufTy : (tb : Table) → Fin (tcTables nBuf tb) → BufTy
  | .hbm, ⟨0, _⟩ => ⟨S16x128x128x64, .f32⟩
  | .hbm, ⟨1, _⟩ => ⟨S16x126x126x576, .f32⟩
  | .local _ .vmem, ⟨0, _⟩ => ⟨S1x128x128x64, .f32⟩
  | .local _ .vmem, ⟨1, _⟩ => ⟨S1x128x128x64, .f32⟩
  | .local _ .vmem, ⟨2, _⟩ => ⟨S1x18x126x576, .f32⟩
  | .local _ .vmem, ⟨3, _⟩ => ⟨S1x18x126x576, .f32⟩
  | _, _ => ⟨S16x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 7], ![false, false]⟩

def k0_mult1 (i : grid0.Coords) : BitVec 32 :=
  let arg1 : BitVec 32 := BitVec.ofNat 32 (i 1).val
  let c18_i32 : BitVec 32 := 18#32
  let v0 : BitVec 32 := Scalar.muli arg1 c18_i32
  v0
def k0_off1 (i : grid0.Coords) (c0_i32 : BitVec 32) : Fin 4 → Nat :=
  let c0 : Index := 0#32
  let arg1 : BitVec 32 := BitVec.ofNat 32 (i 1).val
  let c18_i32 : BitVec 32 := 18#32
  let v0 : BitVec 32 := Scalar.muli arg1 c18_i32
  let v1 : BitVec 32 := v0
  let v2 : BitVec 32 := Scalar.addi v1 c0_i32
  let v3 : Index := Scalar.indexCast v2
  let c0_0 : Index := 0#32
  let c0_1 : Index := 0#32
  ![0, v3.toNat, 0, 0]
def k0_off2 (i : grid0.Coords) (c0_i32_6 : BitVec 32) : Fin 4 → Nat :=
  let c0_7 : Index := 0#32
  let arg1 : BitVec 32 := BitVec.ofNat 32 (i 1).val
  let c18_i32 : BitVec 32 := 18#32
  let v0 : BitVec 32 := Scalar.muli arg1 c18_i32
  let v1 : BitVec 32 := v0
  let v9 : BitVec 32 := Scalar.addi v1 c0_i32_6
  let v10 : Index := Scalar.indexCast v9
  let c1 : Index := 1#32
  let c0_8 : Index := 0#32
  ![0, v10.toNat, 1, 0]
def k0_off3 (i : grid0.Coords) (c0_i32_12 : BitVec 32) : Fin 4 → Nat :=
  let c0_13 : Index := 0#32
  let arg1 : BitVec 32 := BitVec.ofNat 32 (i 1).val
  let c18_i32 : BitVec 32 := 18#32
  let v0 : BitVec 32 := Scalar.muli arg1 c18_i32
  let v1 : BitVec 32 := v0
  let v16 : BitVec 32 := Scalar.addi v1 c0_i32_12
  let v17 : Index := Scalar.indexCast v16
  let c2 : Index := 2#32
  let c0_14 : Index := 0#32
  ![0, v17.toNat, 2, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x18x126x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S1x18x126x64 : 0 < S1x18x126x64.numel
  shapeCasts_S1x18x126x64_S18x126x64 : S1x18x126x64.ShapeCasts S18x126x64
  inb_S1x18x126x576_S1x18x126x64_0_0_0_0 : ∀ a, (![0, 0, 0, 0] : Fin 4 → Nat) a + S1x18x126x64.size a ≤ S1x18x126x576.size a
  shapeCasts_S18x126x64_S1x18x126x64 : S18x126x64.ShapeCasts S1x18x126x64
  inb_S1x18x126x576_S1x18x126x64_0_0_0_64 : ∀ a, (![0, 0, 0, 64] : Fin 4 → Nat) a + S1x18x126x64.size a ≤ S1x18x126x576.size a
  inb_S1x18x126x576_S1x18x126x64_0_0_0_128 : ∀ a, (![0, 0, 0, 128] : Fin 4 → Nat) a + S1x18x126x64.size a ≤ S1x18x126x576.size a
  inb_S1x18x126x576_S1x18x126x64_0_0_0_192 : ∀ a, (![0, 0, 0, 192] : Fin 4 → Nat) a + S1x18x126x64.size a ≤ S1x18x126x576.size a
  inb_S1x18x126x576_S1x18x126x64_0_0_0_256 : ∀ a, (![0, 0, 0, 256] : Fin 4 → Nat) a + S1x18x126x64.size a ≤ S1x18x126x576.size a
  inb_S1x18x126x576_S1x18x126x64_0_0_0_320 : ∀ a, (![0, 0, 0, 320] : Fin 4 → Nat) a + S1x18x126x64.size a ≤ S1x18x126x576.size a
  inb_S1x18x126x576_S1x18x126x64_0_0_0_384 : ∀ a, (![0, 0, 0, 384] : Fin 4 → Nat) a + S1x18x126x64.size a ≤ S1x18x126x576.size a
  inb_S1x18x126x576_S1x18x126x64_0_0_0_448 : ∀ a, (![0, 0, 0, 448] : Fin 4 → Nat) a + S1x18x126x64.size a ≤ S1x18x126x576.size a
  inb_S1x18x126x576_S1x18x126x64_0_0_0_512 : ∀ a, (![0, 0, 0, 512] : Fin 4 → Nat) a + S1x18x126x64.size a ≤ S1x18x126x576.size a
  hrank0 : 0 < grid0.rank
  k0_mult1_dvd : ∀ i : grid0.Coords, 18 ∣ (k0_mult1 i).toNat
  k0_off1_inb : ∀ i : grid0.Coords, ∀ (r : Fin 3), ∀ a, (k0_off1 i (BitVec.ofNat 32 r.val)) a + S1x18x126x64.size a ≤ S1x128x128x64.size a
  k0_off2_inb : ∀ i : grid0.Coords, ∀ (r : Fin 3), ∀ a, (k0_off2 i (BitVec.ofNat 32 r.val)) a + S1x18x126x64.size a ≤ S1x128x128x64.size a
  k0_off3_inb : ∀ i : grid0.Coords, ∀ (r : Fin 3), ∀ a, (k0_off3 i (BitVec.ofNat 32 r.val)) a + S1x18x126x64.size a ≤ S1x128x128x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x64.size a ≤ S16x128x128x64.size a
  hwx0_0 : ∀ i : grid0.Coords, EltTy.bits .f32 = 32 ∨ (Rect.block (s := S16x128x128x64) S1x128x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x18x126x576.size a ≤ S16x126x126x576.size a
  hwx0_1 : ∀ i : grid0.Coords, EltTy.bits .f32 = 32 ∨ (Rect.block (s := S16x126x126x576) S1x18x126x576.size (cc0_transform_1 i) (hinb0_1 i)).WholeWords (EltTy.packing .f32)

variable [Facts₀]

abbrev win0_0 : Pipeline.Window sig grid0 :=
  Pipeline.Window.ofSpec (Memref.whole main_arg0) S1x128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x18x126x576.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x128x128x64 : Shape := ⟨4, ![16, 128, 128, 64]⟩
abbrev S16x126x126x64 : Shape := ⟨4, ![16, 126, 126, 64]⟩
abbrev S16x126x126x576 : Shape := ⟨4, ![16, 126, 126, 576]⟩

abbrev nBuf : Space → Nat
  | .hbm => 11
  | .vmem => 0
  | .smem => 0
  | _ => 0

abbrev bufTy : (tb : Table) → Fin (tcTables nBuf tb) → BufTy
  | .hbm, ⟨0, _⟩ => ⟨S16x128x128x64, .f32⟩
  | .hbm, ⟨1, _⟩ => ⟨S16x126x126x64, .f32⟩
  | .hbm, ⟨2, _⟩ => ⟨S16x126x126x64, .f32⟩
  | .hbm, ⟨3, _⟩ => ⟨S16x126x126x64, .f32⟩
  | .hbm, ⟨4, _⟩ => ⟨S16x126x126x64, .f32⟩
  | .hbm, ⟨5, _⟩ => ⟨S16x126x126x64, .f32⟩
  | .hbm, ⟨6, _⟩ => ⟨S16x126x126x64, .f32⟩
  | .hbm, ⟨7, _⟩ => ⟨S16x126x126x64, .f32⟩
  | .hbm, ⟨8, _⟩ => ⟨S16x126x126x64, .f32⟩
  | .hbm, ⟨9, _⟩ => ⟨S16x126x126x64, .f32⟩
  | .hbm, ⟨10, _⟩ => ⟨S16x126x126x576, .f32⟩
  | _, _ => ⟨S16x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩

abbrev nD : Nat := 1
abbrev τ : Topo := Topo.v7x

variable {F : FTy → Type} [FloatOps F]

class Facts₀ : Prop where
  slices_S16x128x128x64_S16x126x126x64_0_0_0_0 : S16x128x128x64.Slices ![0, 0, 0, 0] S16x126x126x64
  slices_S16x128x128x64_S16x126x126x64_0_0_1_0 : S16x128x128x64.Slices ![0, 0, 1, 0] S16x126x126x64
  slices_S16x128x128x64_S16x126x126x64_0_0_2_0 : S16x128x128x64.Slices ![0, 0, 2, 0] S16x126x126x64
  slices_S16x128x128x64_S16x126x126x64_0_1_0_0 : S16x128x128x64.Slices ![0, 1, 0, 0] S16x126x126x64
  slices_S16x128x128x64_S16x126x126x64_0_1_1_0 : S16x128x128x64.Slices ![0, 1, 1, 0] S16x126x126x64
  slices_S16x128x128x64_S16x126x126x64_0_1_2_0 : S16x128x128x64.Slices ![0, 1, 2, 0] S16x126x126x64
  slices_S16x128x128x64_S16x126x126x64_0_2_0_0 : S16x128x128x64.Slices ![0, 2, 0, 0] S16x126x126x64
  slices_S16x128x128x64_S16x126x126x64_0_2_1_0 : S16x128x128x64.Slices ![0, 2, 1, 0] S16x126x126x64
  slices_S16x128x128x64_S16x126x126x64_0_2_2_0 : S16x128x128x64.Slices ![0, 2, 2, 0] S16x126x126x64
  concatenates_S16x126x126x64_S16x126x126x64_S16x126x126x64_S16x126x126x64_S16x126x126x64_S16x126x126x64_S16x126x126x64_S16x126x126x64_S16x126x126x64_S16x126x126x576_d3 : Shape.Concatenates [S16x126x126x64, S16x126x126x64, S16x126x126x64, S16x126x126x64, S16x126x126x64, S16x126x126x64, S16x126x126x64, S16x126x126x64, S16x126x126x64] S16x126x126x576 3

variable [Facts₀]

class Facts : Prop extends Facts₀ where

variable [Facts]
-- ==== Proof.Patches.lean ====
/-
  Patch extraction, as one function of the input, index by index.

  The input is a batch of 16 images of 128 x 128 pixels with 64 channels. The output has, for every image and every
  position (y, w) of a 126 x 126 grid, the 3 x 3 window of pixels whose top-left corner is (y, w), flattened along the
  channel axis: output channel ch = 64 * p + c holds channel c of the window's pixel number p = 3 * i + j, that is of the
  image's pixel (y + i, w + j). No arithmetic is done on the values: every output entry is a copy of one input entry.
-/
import Idealize.ShloMosaic.Lib.ValueIdx

namespace Cert.Patches

open Idealize.ShloMosaic Idealize.ShloMosaic.ValueIdx

/-- The images: [batch, row, column, channel]. -/
abbrev SImg : Shape := ⟨4, ![16, 128, 128, 64]⟩
/-- The patches: [batch, row, column, 9 * 64 channels]. -/
abbrev SPat : Shape := ⟨4, ![16, 126, 126, 576]⟩

/-- The input entry that output entry `k = (b, y, w, ch)` copies: with `p = ch / 64` the pixel's number in the window,
    image `b`, row `y + p / 3`, column `w + p % 3`, channel `ch % 64`. -/
def src (k : SPat.Idx) : SImg.Idx :=
  have h0 : (k 0).val < 16 := (k 0).isLt
  have h1 : (k 1).val < 126 := (k 1).isLt
  have h2 : (k 2).val < 126 := (k 2).isLt
  have h3 : (k 3).val < 576 := (k 3).isLt
  ix4 (⟨(k 0).val, h0⟩ : Fin 16) (⟨(k 1).val + (k 3).val / 64 / 3, by omega⟩ : Fin 128)
    (⟨(k 2).val + (k 3).val / 64 % 3, by omega⟩ : Fin 128) (⟨(k 3).val % 64, by omega⟩ : Fin 64)

theorem src_val0 (k : SPat.Idx) : (src k 0).val = (k 0).val := rfl
theorem src_val1 (k : SPat.Idx) : (src k 1).val = (k 1).val + (k 3).val / 64 / 3 := rfl
theorem src_val2 (k : SPat.Idx) : (src k 2).val = (k 2).val + (k 3).val / 64 % 3 := rfl
theorem src_val3 (k : SPat.Idx) : (src k 3).val = (k 3).val % 64 := rfl

/-- The patch array of the images `x`. -/
def patches {α : Type} (x : SImg.Idx → α) : SPat.Idx → α := fun k => x (src k)

/-- An image index is `src k` as soon as its four coordinates are the ones `src` names, the window's pixel number
    `(k 3) / 64` given as `3 * i + j` with `j < 3`. -/
theorem eq_src (k : SPat.Idx) (i j : Nat) (hp : (k 3).val / 64 = 3 * i + j) (hj : j < 3) (s : SImg.Idx)
    (e0 : (s 0).val = (k 0).val) (e1 : (s 1).val = i + (k 1).val) (e2 : (s 2).val = j + (k 2).val)
    (e3 : (s 3).val = (k 3).val % 64) : s = src k := by
  funext a
  apply Fin.ext
  match a with
  | ⟨0, _⟩ => exact e0.trans (src_val0 k).symm
  | ⟨1, _⟩ => rw [show (s ⟨1, _⟩).val = i + (k 1).val from e1, show (src k ⟨1, _⟩).val = _ from src_val1 k, hp]; omega
  | ⟨2, _⟩ => rw [show (s ⟨2, _⟩).val = j + (k 2).val from e2, show (src k ⟨2, _⟩).val = _ from src_val2 k, hp]; omega
  | ⟨3, _⟩ => exact e3.trans (src_val3 k).symm

end Cert.Patches
-- ==== Proof.RefPatches.lean ====
/-
  The reference computes the patch array: its nine slices of the images, one per pixel (i, j) of the 3 x 3 window — slice
  number p = 3 * i + j is the images moved up by i rows and left by j columns, cut to 126 x 126 — joined along the channel
  axis, 64 channels each, are `Cert.Patches.patches` of the images: output channel ch lies in slice ch / 64, at that
  slice's channel ch % 64.
-/
import proofs.«178672_j41154376631133_1_alg».proof.Proof.Gen.ReferenceIdeal.Read
import proofs.«178672_j41154376631133_1_alg».proof.Proof.Patches
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.Patches
open Idealize.ShloMosaic Idealize.ShloMosaic.ValueIdx

variable {F : FTy → Type} [FloatOps F]

/-- The nine slices by their number `p = 3 * i + j`. -/
def shifted (x0 : (⟨S16x128x128x64, .f32⟩ : BufTy).Contents (Elt F)) : Fin 9 → (S16x126x126x64.Idx → Elt F .f32)
  | ⟨0, _⟩ => val_main_v0 (F := F) x0
  | ⟨1, _⟩ => val_main_v1 (F := F) x0
  | ⟨2, _⟩ => val_main_v2 (F := F) x0
  | ⟨3, _⟩ => val_main_v3 (F := F) x0
  | ⟨4, _⟩ => val_main_v4 (F := F) x0
  | ⟨5, _⟩ => val_main_v5 (F := F) x0
  | ⟨6, _⟩ => val_main_v6 (F := F) x0
  | ⟨7, _⟩ => val_main_v7 (F := F) x0
  | ⟨8, _⟩ => val_main_v8 (F := F) x0
  | ⟨_ + 9, h⟩ => absurd h (by omega)

/-- Slice number `p = 3 * i + j` at `(b, y, w, c)` is the images at `(b, i + y, j + w, c)`. -/
theorem shifted_apply (x0 : (⟨S16x128x128x64, .f32⟩ : BufTy).Contents (Elt F)) (p : Fin 9) (i j : Nat)
    (hp : p.val = 3 * i + j) (hj : j < 3) (y : S16x126x126x64.Idx) (s : S16x128x128x64.Idx)
    (e0 : (s 0).val = (y 0).val) (e1 : (s 1).val = i + (y 1).val) (e2 : (s 2).val = j + (y 2).val)
    (e3 : (s 3).val = (y 3).val) : shifted x0 p y = x0 s := by
  have ext : ∀ (s' : S16x128x128x64.Idx), (s' 0).val = (s 0).val → (s' 1).val = (s 1).val → (s' 2).val = (s 2).val →
      (s' 3).val = (s 3).val → x0 s' = x0 s := fun s' a0 a1 a2 a3 =>
    congrArg x0 (funext fun a => Fin.ext (match a with | ⟨0, _⟩ => a0 | ⟨1, _⟩ => a1 | ⟨2, _⟩ => a2 | ⟨3, _⟩ => a3))
  match p, hp with
  | ⟨0, _⟩, hp =>
    have hp' : 0 = 3 * i + j := hp
    refine (val_main_v0_apply x0 y).trans (ext _ ?_ ?_ ?_ ?_)
    · show (y 0).val = _; omega
    · show (y 1).val = _; omega
    · show (y 2).val = _; omega
    · show (y 3).val = _; omega
  | ⟨1, _⟩, hp =>
    have hp' : 1 = 3 * i + j := hp
    refine (val_main_v1_apply x0 y).trans (ext _ ?_ ?_ ?_ ?_)
    · show (y 0).val = _; omega
    · show (y 1).val = _; omega
    · show 1 + (y 2).val = _; omega
    · show (y 3).val = _; omega
  | ⟨2, _⟩, hp =>
    have hp' : 2 = 3 * i + j := hp
    refine (val_main_v2_apply x0 y).trans (ext _ ?_ ?_ ?_ ?_)
    · show (y 0).val = _; omega
    · show (y 1).val = _; omega
    · show 2 + (y 2).val = _; omega
    · show (y 3).val = _; omega
  | ⟨3, _⟩, hp =>
    have hp' : 3 = 3 * i + j := hp
    refine (val_main_v3_apply x0 y).trans (ext _ ?_ ?_ ?_ ?_)
    · show (y 0).val = _; omega
    · show 1 + (y 1).val = _; omega
    · show (y 2).val = _; omega
    · show (y 3).val = _; omega
  | ⟨4, _⟩, hp =>
    have hp' : 4 = 3 * i + j := hp
    refine (val_main_v4_apply x0 y).trans (ext _ ?_ ?_ ?_ ?_)
    · show (y 0).val = _; omega
    · show 1 + (y 1).val = _; omega
    · show 1 + (y 2).val = _; omega
    · show (y 3).val = _; omega
  | ⟨5, _⟩, hp =>
    have hp' : 5 = 3 * i + j := hp
    refine (val_main_v5_apply x0 y).trans (ext _ ?_ ?_ ?_ ?_)
    · show (y 0).val = _; omega
    · show 1 + (y 1).val = _; omega
    · show 2 + (y 2).val = _; omega
    · show (y 3).val = _; omega
  | ⟨6, _⟩, hp =>
    have hp' : 6 = 3 * i + j := hp
    refine (val_main_v6_apply x0 y).trans (ext _ ?_ ?_ ?_ ?_)
    · show (y 0).val = _; omega
    · show 2 + (y 1).val = _; omega
    · show (y 2).val = _; omega
    · show (y 3).val = _; omega
  | ⟨7, _⟩, hp =>
    have hp' : 7 = 3 * i + j := hp
    refine (val_main_v7_apply x0 y).trans (ext _ ?_ ?_ ?_ ?_)
    · show (y 0).val = _; omega
    · show 2 + (y 1).val = _; omega
    · show 1 + (y 2).val = _; omega
    · show (y 3).val = _; omega
  | ⟨8, _⟩, hp =>
    have hp' : 8 = 3 * i + j := hp
    refine (val_main_v8_apply x0 y).trans (ext _ ?_ ?_ ?_ ?_)
    · show (y 0).val = _; omega
    · show 2 + (y 1).val = _; omega
    · show 2 + (y 2).val = _; omega
    · show (y 3).val = _; omega
  | ⟨n + 9, h⟩, _ => exact absurd h (by omega)

/-- The reference's last stage joins the nine slices in the order of their numbers. -/
theorem val_main_v9_ofFn (x0 : (⟨S16x128x128x64, .f32⟩ : BufTy).Contents (Elt F)) :
    val_main_v9 (F := F) x0 = concatenate S16x126x126x576 3
      (List.ofFn fun p : Fin 9 => (⟨S16x126x126x64, shifted x0 p⟩ : (s : Shape) × (s.Idx → Elt F .f32)))
      concatenates_S16x126x126x64_S16x126x126x64_S16x126x126x64_S16x126x126x64_S16x126x126x64_S16x126x126x64_S16x126x126x64_S16x126x126x64_S16x126x126x64_S16x126x126x576_d3 := rfl

/-- THE REFERENCE IS PATCH EXTRACTION: its result, as a function of the images, is `patches`. -/
theorem val_main_v9_eq_patches (x0 : (⟨S16x128x128x64, .f32⟩ : BufTy).Contents (Elt F)) :
    val_main_v9 (F := F) x0 = patches x0 := by
  funext k
  have h0 : (k 0).val < 16 := (k 0).isLt
  have h1 : (k 1).val < 126 := (k 1).isLt
  have h2 : (k 2).val < 126 := (k 2).isLt
  have h3 : (k 3).val < 576 := (k 3).isLt
  rw [val_main_v9_ofFn]
  refine (concatenate_ofFn_apply (t := S16x126x126x576) (s₁ := S16x126x126x64) (3 : Fin 4) (shifted x0) _ rfl 64 rfl k (⟨(k 3).val / 64, by omega⟩ : Fin 9) rfl
    (ix4 (⟨(k 0).val, h0⟩ : Fin 16) (⟨(k 1).val, h1⟩ : Fin 126) (⟨(k 2).val, h2⟩ : Fin 126) (⟨(k 3).val % 64, by omega⟩ : Fin 64))
    rfl ?_).trans ?_
  · intro b hb
    match b with
    | ⟨0, _⟩ => rfl
    | ⟨1, _⟩ => rfl
    | ⟨2, _⟩ => rfl
    | ⟨3, _⟩ => exact absurd rfl hb
  · refine shifted_apply x0 _ ((k 3).val / 64 / 3) ((k 3).val / 64 % 3) ?_ ?_ _ (src k) ?_ ?_ ?_ ?_
    · show (k 3).val / 64 = _; omega
    · omega
    · exact src_val0 k
    · rw [src_val1]; show _ = (k 3).val / 64 / 3 + (k 1).val; omega
    · rw [src_val2]; show _ = (k 3).val / 64 % 3 + (k 2).val; omega
    · exact src_val3 k

end Cert.ReferenceIdeal.RefValue

end
-- ==== Proof.BlockPatches.lean ====
/-
  The kernel's body at one grid point (b, h): the resident block is image b whole, [1, 128, 128, 64], and the body fills the
  output block [1, 18, 126, 576] — rows 18 * h .. 18 * h + 17 of image b's patches — by nine copies, one per pixel (i, j) of
  the 3 x 3 window: the 18 x 126 x 64 box of the image that starts at row 18 * h + i, column j, stored (after a change of
  shape there and back, which moves nothing) at channels 64 * (3 * i + j) .. 64 * (3 * i + j) + 63. The nine stores tile the
  output block, so what the block holds afterwards is, at every index, the image entry the store covering it copied.
-/
import proofs.«178672_j41154376631133_1_alg».proof.Proof.Gen.KernelIdeal.Frame
import proofs.«178672_j41154376631133_1_alg».proof.Proof.Patches
import Idealize.ShloMosaic.Lib.Pipeline.Value
import Idealize.ShloMosaic.Lib.ValueIdx

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

/-- The entry of the resident image that entry `y = (0, r, w, ch)` of the output block copies at grid point `i = (b, h)`:
    with `p = ch / 64`, row `18 * h + p / 3 + r`, column `p % 3 + w`, channel `ch % 64`. -/
def blockSrc (i : grid0.Coords) (y : S1x18x126x576.Idx) : S1x128x128x64.Idx :=
  have hi : (i 1).val < 7 := (i 1).isLt
  have h1 : (y 1).val < 18 := (y 1).isLt
  have h2 : (y 2).val < 126 := (y 2).isLt
  have h3 : (y 3).val < 576 := (y 3).isLt
  ix4 (0 : Fin 1) (⟨18 * (i 1).val + (y 3).val / 64 / 3 + (y 1).val, by omega⟩ : Fin 128)
    (⟨(y 3).val / 64 % 3 + (y 2).val, by omega⟩ : Fin 128) (⟨(y 3).val % 64, by omega⟩ : Fin 64)

theorem blockSrc_val0 (i : grid0.Coords) (y : S1x18x126x576.Idx) : (blockSrc i y 0).val = 0 := rfl
theorem blockSrc_val1 (i : grid0.Coords) (y : S1x18x126x576.Idx) :
    (blockSrc i y 1).val = 18 * (i 1).val + (y 3).val / 64 / 3 + (y 1).val := rfl
theorem blockSrc_val2 (i : grid0.Coords) (y : S1x18x126x576.Idx) : (blockSrc i y 2).val = (y 3).val / 64 % 3 + (y 2).val := rfl
theorem blockSrc_val3 (i : grid0.Coords) (y : S1x18x126x576.Idx) : (blockSrc i y 3).val = (y 3).val % 64 := rfl

/-- ONE COPY: the box of the image at row offset `18 * h + di`, column offset `dj`, reshaped there and back, read at `x`, is
    the image entry that `blockSrc` names for the output-block index the store at channel offset `64 * (3 * di + dj)` puts
    `x` at. -/
theorem piece_read (i : grid0.Coords) (x0 : Vec F S1x128x128x64 .f32) (off : Fin 4 → Nat)
    (inb : ∀ a, off a + S1x18x126x64.size a ≤ S1x128x128x64.size a) (ch : Nat)
    (inb' : ∀ a, (![0, 0, 0, ch] : Fin 4 → Nat) a + S1x18x126x64.size a ≤ S1x18x126x576.size a) (di dj : Nat)
    (hoff : off = ![0, 18 * (i 1).val + di, dj, 0]) (hch : ch = 64 * (3 * di + dj)) (hdj : dj < 3)
    (x : S1x18x126x64.Idx) :
    shapeCast S1x18x126x64 (shapeCast S18x126x64 (View.ld x0 (Rect.unit (s := S1x128x128x64) off S1x18x126x64.size inb))
        shapeCasts_S1x18x126x64_S18x126x64) shapeCasts_S18x126x64_S1x18x126x64 x
      = x0 (blockSrc i ((Rect.unit (s := S1x18x126x576) ![0, 0, 0, ch] S1x18x126x64.size inb').emb x)) := by
  rw [shapeCast_shapeCast]
  subst hoff
  have hx0 : (x 0).val < 1 := (x 0).isLt
  have hx3 : (x 3).val < 64 := (x 3).isLt
  show x0 ((Rect.unit (s := S1x128x128x64) ![0, 18 * (i 1).val + di, dj, 0] S1x18x126x64.size inb).idx x) = _
  refine congrArg x0 (funext fun a => Fin.ext ?_)
  match a with
  | ⟨0, _⟩ =>
    rw [show (blockSrc i _ ⟨0, _⟩).val = 0 from blockSrc_val0 i _]
    show 0 + 1 * (x 0).val = 0; omega
  | ⟨1, _⟩ =>
    rw [show (blockSrc i _ ⟨1, _⟩).val = _ from blockSrc_val1 i _]
    show 18 * (i 1).val + di + 1 * (x 1).val = 18 * (i 1).val + (ch + 1 * (x 3).val) / 64 / 3 + (0 + 1 * (x 1).val)
    omega
  | ⟨2, _⟩ =>
    rw [show (blockSrc i _ ⟨2, _⟩).val = _ from blockSrc_val2 i _]
    show dj + 1 * (x 2).val = (ch + 1 * (x 3).val) / 64 % 3 + (0 + 1 * (x 2).val)
    omega
  | ⟨3, _⟩ =>
    rw [show (blockSrc i _ ⟨3, _⟩).val = _ from blockSrc_val3 i _]
    show 0 + 1 * (x 3).val = (ch + 1 * (x 3).val) % 64
    omega

/-- WHAT THE BODY LEAVES in the output block at grid point `i`, on any staging buffers, from the resident image `x0`: at every
    index `y` the image entry `blockSrc i y`. -/
theorem out_apply (c : Dev nD) (i : grid0.Coords) (arg2 : Memref sig .tc .vmem S1x128x128x64 .f32) (harg2 : arg2.IsWhole)
    (arg3 : Memref sig .tc .vmem S1x18x126x576 .f32) (harg3 : arg3.IsWhole) (x0 : Vec F S1x128x128x64 .f32)
    (y : S1x18x126x576.Idx) :
    out0_A_1 c i arg2 harg2 arg3 harg3 x0 y = x0 (blockSrc i y) := by
  unfold out0_A_1
  rw [View.read_writes_eq_canon _ _ _ (cover0_A_1 c i arg2 harg2 arg3 harg3 x0)]
  refine View.canon_apply_of_pieces (fun y => x0 (blockSrc i y)) _ ?_ y (cover0_A_1 c i arg2 harg2 arg3 harg3 x0 y)
  unfold kernelRun0_A
  dsimp only
  sl_unfold_words
  simp only [View.readAt_eq_ld, harg2.read_unread]
  intro p hp x
  simp only [List.mem_cons, List.not_mem_nil, or_false] at hp
  rcases hp with rfl | rfl | rfl | rfl | rfl | rfl | rfl | rfl | rfl
  · exact piece_read i x0 (k0_off3 i 2#32) (k0_off3_inb i 2) 512 inb_S1x18x126x576_S1x18x126x64_0_0_0_512 2 2
      (k0_off3_eq i ⟨2, by decide⟩) rfl (by decide) x
  · exact piece_read i x0 (k0_off2 i 2#32) (k0_off2_inb i 2) 448 inb_S1x18x126x576_S1x18x126x64_0_0_0_448 2 1
      (k0_off2_eq i ⟨2, by decide⟩) rfl (by decide) x
  · exact piece_read i x0 (k0_off1 i 2#32) (k0_off1_inb i 2) 384 inb_S1x18x126x576_S1x18x126x64_0_0_0_384 2 0
      (k0_off1_eq i ⟨2, by decide⟩) rfl (by decide) x
  · exact piece_read i x0 (k0_off3 i 1#32) (k0_off3_inb i 1) 320 inb_S1x18x126x576_S1x18x126x64_0_0_0_320 1 2
      (k0_off3_eq i ⟨1, by decide⟩) rfl (by decide) x
  · exact piece_read i x0 (k0_off2 i 1#32) (k0_off2_inb i 1) 256 inb_S1x18x126x576_S1x18x126x64_0_0_0_256 1 1
      (k0_off2_eq i ⟨1, by decide⟩) rfl (by decide) x
  · exact piece_read i x0 (k0_off1 i 1#32) (k0_off1_inb i 1) 192 inb_S1x18x126x576_S1x18x126x64_0_0_0_192 1 0
      (k0_off1_eq i ⟨1, by decide⟩) rfl (by decide) x
  · exact piece_read i x0 (k0_off3 i 0#32) (k0_off3_inb i 0) 128 inb_S1x18x126x576_S1x18x126x64_0_0_0_128 0 2
      (k0_off3_eq i ⟨0, by decide⟩) rfl (by decide) x
  · exact piece_read i x0 (k0_off2 i 0#32) (k0_off2_inb i 0) 64 inb_S1x18x126x576_S1x18x126x64_0_0_0_64 0 1
      (k0_off2_eq i ⟨0, by decide⟩) rfl (by decide) x
  · exact piece_read i x0 (k0_off1 i 0#32) (k0_off1_inb i 0) 0 inb_S1x18x126x576_S1x18x126x64_0_0_0_0 0 0
      (k0_off1_eq i ⟨0, by decide⟩) rfl (by decide) x

end Cert.KernelIdeal.BlockValue

end
-- ==== Proof.ArrayPatches.lean ====
/-
  From blocks to the array. Grid point t = (b, h) stages image b whole and writes back the output block of rows
  18 * h .. 18 * h + 17 of image b's patches; the 16 * 7 output blocks tile the patch array, and what point t writes back is
  the block of `Cert.Patches.patches` of the images there (the body's copy of an image entry, read through the two blocks'
  places in their arrays, is the entry `Cert.Patches.src` names). So after the run the output array is `patches` of the
  images.
-/
import proofs.«178672_j41154376631133_1_alg».proof.Proof.Gen.KernelIdeal.Value
import proofs.«178672_j41154376631133_1_alg».proof.Proof.BlockPatches

set_option maxRecDepth 16384

noncomputable section

namespace Cert.KernelIdeal.ArrayValue

open Cert.KernelIdeal Cert.KernelIdeal.Gen Cert.KernelIdeal.Value Cert.KernelIdeal.BlockValue Cert.Patches
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The two index maps over the grid: the input block is image `b` whole, the output block is block `(b, h)`. -/
theorem idx_facts : ∀ t : Fin cfg0.N,
    win0_0.index t (0 : Fin 4) = win0_1.index t (0 : Fin 4) ∧ win0_0.index t (1 : Fin 4) = 0
    ∧ win0_0.index t (2 : Fin 4) = 0 ∧ win0_0.index t (3 : Fin 4) = 0
    ∧ win0_1.index t (1 : Fin 4) = (grid0.coords t 1).val ∧ win0_1.index t (2 : Fin 4) = 0
    ∧ win0_1.index t (3 : Fin 4) = 0 ∧ win0_1.index t (0 : Fin 4) < 16 ∧ win0_1.index t (1 : Fin 4) < 7 :=
  (by decide +kernel : ∀ t : Fin grid0.N, _)

/-- Every output block `(b, h)` is some grid point's. -/
theorem idx_onto : ∀ (q0 : Fin 16) (q1 : Fin 7), ∃ t : Fin cfg0.N, win0_1.index t = ![q0.val, q1.val, 0, 0] :=
  (by decide +kernel : ∀ (q0 : Fin 16) (q1 : Fin 7), ∃ t : Fin grid0.N, win0_1.index t = ![q0.val, q1.val, 0, 0])

/-- WHAT POINT `t` WRITES BACK is block `t` of the patch array of the images as the region finds them. -/
theorem flushed_eq (c : Dev nD) (t : Fin cfg0.N) :
    (dats m 0 c).flushed 1 t = ((cfg0.win 1).blk t).view.read (Elt F) (patches (V m c main_arg0)) := by
  rw [Value.flushed1_A]
  obtain ⟨e0, e1, e2, e3, e4, e5, e6, e7, e8⟩ := idx_facts t
  funext y
  have hy0 : (y 0).val < 1 := (y 0).isLt
  have hy1 : (y 1).val < 18 := (y 1).isLt
  have hy2 : (y 2).val < 126 := (y 2).isLt
  have hy3 : (y 3).val < 576 := (y 3).isLt
  show out0_A_1 c (grid0.coords t) (ms0_0 t) (hs0_0 t) (ms0_1 t) (hs0_1 t) (iblk m c 0 t) y
    = patches (V m c main_arg0) (((cfg0.win 1).blk t).view.emb y)
  refine (out_apply c (grid0.coords t) (ms0_0 t) (hs0_0 t) (ms0_1 t) (hs0_1 t) (iblk m c 0 t) y).trans ?_
  show V m c main_arg0 (((cfg0.win 0).blk t).view.emb (blockSrc (grid0.coords t) y))
    = V m c main_arg0 (src (((cfg0.win 1).blk t).view.emb y))
  refine congrArg (V m c main_arg0) (eq_src _ ((y 3).val / 64 / 3) ((y 3).val / 64 % 3) ?_ ?_ _ ?_ ?_ ?_ ?_)
  · show (win0_1.index t (3 : Fin 4) * 576 + 1 * (y 3).val) / 64 = _
    omega
  · omega
  · show win0_0.index t (0 : Fin 4) * 1 + 1 * (blockSrc (grid0.coords t) y 0).val
      = win0_1.index t (0 : Fin 4) * 1 + 1 * (y 0).val
    rw [blockSrc_val0]; omega
  · show win0_0.index t (1 : Fin 4) * 128 + 1 * (blockSrc (grid0.coords t) y 1).val
      = (y 3).val / 64 / 3 + (win0_1.index t (1 : Fin 4) * 18 + 1 * (y 1).val)
    rw [blockSrc_val1]; omega
  · show win0_0.index t (2 : Fin 4) * 128 + 1 * (blockSrc (grid0.coords t) y 2).val
      = (y 3).val / 64 % 3 + (win0_1.index t (2 : Fin 4) * 126 + 1 * (y 2).val)
    rw [blockSrc_val2]; omega
  · show win0_0.index t (3 : Fin 4) * 64 + 1 * (blockSrc (grid0.coords t) y 3).val
      = (win0_1.index t (3 : Fin 4) * 576 + 1 * (y 3).val) % 64
    rw [blockSrc_val3]; omega

/-- An index of the patch array is in point `t`'s block iff each coordinate is in the block's range on its axis. -/
theorem mem_blk (t : Fin cfg0.N) (i : S16x126x126x576.Idx) :
    i ∈ ((cfg0.win 1).blk t).view.set ↔ ∀ a : Fin 4, win0_1.index t a * S1x18x126x576.size a ≤ (i a).val
      ∧ (i a).val < win0_1.index t a * S1x18x126x576.size a + S1x18x126x576.size a := by
  show i ∈ ((View.whole main_v0).slice (win0_1.rect t)).set ↔ _
  rw [View.set_slice_whole, Rect.mem_set_unit]
  exact Iff.rfl

/-- The output blocks cover the patch array: index `(b, y, w, ch)` lies in block `(b, y / 18)`. -/
theorem cover (i : S16x126x126x576.Idx) :
    ∃ t : Fin cfg0.N, (cfg0.win 1).flush t = true ∧ i ∈ ((cfg0.win 1).blk t).view.set := by
  have hi0 : (i 0).val < 16 := (i 0).isLt
  have hi1 : (i 1).val < 126 := (i 1).isLt
  have hi2 : (i 2).val < 126 := (i 2).isLt
  have hi3 : (i 3).val < 576 := (i 3).isLt
  obtain ⟨t, ht⟩ := idx_onto ⟨(i 0).val, hi0⟩ ⟨(i 1).val / 18, by omega⟩
  have q0 : win0_1.index t (0 : Fin 4) = (i 0).val := congrFun ht 0
  have q1 : win0_1.index t (1 : Fin 4) = (i 1).val / 18 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 18 ≤ (i 1).val ∧ (i 1).val < win0_1.index t (1 : Fin 4) * 18 + 18; omega
  | ⟨2, _⟩ => show win0_1.index t (2 : Fin 4) * 126 ≤ (i 2).val ∧ (i 2).val < win0_1.index t (2 : Fin 4) * 126 + 126; omega
  | ⟨3, _⟩ => show win0_1.index t (3 : Fin 4) * 576 ≤ (i 3).val ∧ (i 3).val < win0_1.index t (3 : Fin 4) * 576 + 576; omega

/-- THE OUTPUT ARRAY after the run is the patch array of the images. -/
theorem final (c : Dev nD) : (dats m 0 c).arrAt 1 cfg0.N = patches (m ((c : Thread nD τ).loc main_arg0)) :=
  (dats m 0 c).arrAt_eq_of_cover 1 (patches (V m c main_arg0)) (fun t _ => flushed_eq m c t) cover

/-- The kernel's run, read: every weakly fair execution terminates with the output at the patch array of the images and the
    images unchanged. -/
theorem run : θ_run defs (onTc (τ := τ) (main (F := F))) ⟨m, fun _ => 0, ρ⟩ fun r => ∀ c : Dev nD,
      r.2.mem ((c : Thread nD τ).loc main_v0) = patches (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.lean ====
/- The certificate of a patch-extraction kernel against its reference.

   Both programs take a batch of 16 images (128 x 128 pixels, 64 channels) and return, for every image and every position
   (y, w) of a 126 x 126 grid, the 3 x 3 window of pixels at (y, w) laid out along the channel axis: output channel
   64 * (3 * i + j) + c is channel c of pixel (y + i, w + j) (`Cert.Patches.patches`). Neither does any arithmetic: every output
   entry is a copy of one input entry, so the two results are equal over the extended reals entry by entry, with nothing asked
   of the inputs.

   The kernel runs on a grid of 16 x 7 points: point (b, h) keeps image b whole in its input block and fills the output block
   of rows 18 * h .. 18 * h + 17 by nine copies, one per pixel of the window (Proof/BlockPatches.lean); the 112 output blocks tile
   the result, which is therefore `patches` of the images (Proof/ArrayPatches.lean). The reference cuts the nine shifted
   126 x 126 slices out of the images and joins them along the channel axis, which is `patches` of the images too
   (Proof/RefPatches.lean). The idealization rewrote no operation of the kernel, so `preserves` has nothing to state. -/
import proofs.«178672_j41154376631133_1_alg».proof.Defs
import proofs.«178672_j41154376631133_1_alg».proof.Proof.Gen.Kernel
import proofs.«178672_j41154376631133_1_alg».proof.Proof.Gen.Kernel.Skeleton
import proofs.«178672_j41154376631133_1_alg».proof.Proof.Gen.Kernel.Launch
import proofs.«178672_j41154376631133_1_alg».proof.Proof.Gen.Kernel.Points
import proofs.«178672_j41154376631133_1_alg».proof.Proof.Gen.Kernel.Frame
import proofs.«178672_j41154376631133_1_alg».proof.Proof.Gen.KernelIdeal
import proofs.«178672_j41154376631133_1_alg».proof.Proof.Gen.KernelIdeal.Skeleton
import proofs.«178672_j41154376631133_1_alg».proof.Proof.Gen.KernelIdeal.Launch
import proofs.«178672_j41154376631133_1_alg».proof.Proof.Gen.KernelIdeal.Points
import proofs.«178672_j41154376631133_1_alg».proof.Proof.Gen.KernelIdeal.Frame
import proofs.«178672_j41154376631133_1_alg».proof.Proof.Gen.ReferenceIdeal
import proofs.«178672_j41154376631133_1_alg».proof.Proof.Gen.Pre_finite_inputs
import proofs.«178672_j41154376631133_1_alg».proof.Proof.Gen.KernelIdeal.Value
import proofs.«178672_j41154376631133_1_alg».proof.Proof.Gen.ReferenceIdeal.Run
import proofs.«178672_j41154376631133_1_alg».proof.Proof.Gen.ReferenceIdeal.Read
import proofs.«178672_j41154376631133_1_alg».proof.Proof.Patches
import proofs.«178672_j41154376631133_1_alg».proof.Proof.RefPatches
import proofs.«178672_j41154376631133_1_alg».proof.Proof.BlockPatches
import proofs.«178672_j41154376631133_1_alg».proof.Proof.ArrayPatches
import Idealize.ShloMosaic.Adequacy
import Idealize.ShloMosaic.Init

noncomputable section

namespace Cert.Proof

open Idealize.ShloMosaic Idealize.ShloMosaic.TcCoe Idealize.SL.Sem

/-- The word-level kernel runs and leaves the images as they were. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- The reference is ten host operations: its run ends, with the images unchanged. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both results are the patch array of the images: the kernel's by its blocks, the reference's by its slices; the images
    agree, so the results do. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.val_main_v9_eq_patches, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
